-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S1x4096 : Shape := ⟨2, ![1, 4096]⟩
abbrev S16384x4096 : Shape := ⟨2, ![16384, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  bitsLt_bf16_f32 : FTy.bits .bf16 < FTy.bits .f32
  shapeCasts_S512_S1x512 : S512.ShapeCasts S1x512
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x4096.size a
  hwx0_3 : ∀ i : grid0.Coords, EltTy.bits .f32 = 32 ∨ (Rect.block (s := S16384x4096) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1024x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S4096, .f32⟩
  | .hbm, ⟨24, _⟩ => ⟨S16384x4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S_S4096 : S_.BroadcastsInDim S4096 (![] : Fin 0 → Fin S4096.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.Spec.lean ====
/-
  The radial-basis layer as ONE function of its three argument arrays, index by index, on the extended reals.

  For a batch row `b` and a centre `o` the layer computes
      out[b, o] = exp ( -(max (‖x_b‖² + ‖c_o‖² - 2 · ⟨x_b, c_o⟩) 0) / (2 · e^{ls_o} · e^{ls_o}) ),
  where ‖x_b‖² = ∑ₖ x[b,k]², ‖c_o‖² = ∑ₖ c[o,k]² and ⟨x_b, c_o⟩ = ∑ₖ x[b,k] · c[o,k] over the 1024 features.
  Everything after the three sums is a scalar function of them and of the log-width `ls_o`: `tail`.
  Both programs compute exactly this expression, operation for operation; they differ only in how the
  arrays are cut into blocks, so no algebraic law beyond `0 + s = s` and `0 - d = -d` is needed.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The f32 word of `2.0`, read at the ideal instance. Both programs print the same word, so it is never evaluated. -/
abbrev two : EReal := Ideal.ofBits .f32 0x40000000#32

/-- From the two squared norms `sx`, `sc`, the inner product `cr` and the log-width `l` to the layer's output:
    the squared distance clipped at zero, negated, divided by twice the squared width, exponentiated. -/
def tail (sx sc cr l : EReal) : EReal :=
  Ideal.exp (Ideal.div (-(max (sx + sc - two * cr) 0)) (two * Ideal.exp l * Ideal.exp l))

/-- The layer at batch row `b` and centre `o`. -/
def rbfAt (x : (⟨2, ![16384, 1024]⟩ : Shape).Idx → EReal) (c : (⟨2, ![4096, 1024]⟩ : Shape).Idx → EReal)
    (ls : (⟨1, ![4096]⟩ : Shape).Idx → EReal) (b : Fin 16384) (o : Fin 4096) : EReal :=
  tail (∑ k : Fin 1024, x (ix2 b k) * x (ix2 b k)) (∑ k : Fin 1024, c (ix2 o k) * c (ix2 o k))
    (∑ k : Fin 1024, x (ix2 b k) * c (ix2 o k)) (ls (ix1 o))

/-- The whole output array. -/
def rbf (x : (⟨2, ![16384, 1024]⟩ : Shape).Idx → EReal) (c : (⟨2, ![4096, 1024]⟩ : Shape).Idx → EReal)
    (ls : (⟨1, ![4096]⟩ : Shape).Idx → EReal) : (⟨2, ![16384, 4096]⟩ : Shape).Idx → EReal :=
  fun i => rbfAt x c ls (i 0) (i 1)

theorem rbf_apply (x : (⟨2, ![16384, 1024]⟩ : Shape).Idx → EReal) (c : (⟨2, ![4096, 1024]⟩ : Shape).Idx → EReal)
    (ls : (⟨1, ![4096]⟩ : Shape).Idx → EReal) (b : Fin 16384) (o : Fin 4096) :
    rbf x c ls (ix2 b o) = rbfAt x c ls b o := rfl

/-- The kernel writes the negation as `0 - d`; on the extended reals that is `-d`. -/
theorem zero_sub_eq (d : EReal) : Ideal.ofBits .f32 0x00000000#32 - d = -d := by
  rw [Ideal.ofBits_zero_f32, zero_sub]

/-- A sum that starts from the zero word is the sum. -/
theorem zero_add_eq (s : EReal) : Ideal.ofBits .f32 0x00000000#32 + s = s := by
  rw [Ideal.ofBits_zero_f32, zero_add]

end Cert.Rbf

end
-- ==== Proof.RefSide.lean ====
/-
  The reference program, read at the ideal instance, computes the layer of `Spec.lean`.

  Each host operation is read at an index by the generated stage lemmas: the two row sums as `0 + ∑ₖ`, the
  `dot_general` of `x` with the transposed centres as `∑ₖ x[b,k] · c[o,k]`, the broadcasts as reads of their
  operand at the broadcast coordinates. What is left is to see that the composed index functions name the
  entries `x[b,k]`, `c[o,k]` and `ls[o]`, and that a sum started from the zero word is the sum.
-/
import proofs.«154095_j13932873909049_1_alg».proof.Proof.Gen.ReferenceIdeal.Read
import proofs.«154095_j13932873909049_1_alg».proof.Proof.Spec

noncomputable section

open scoped BigOperators

namespace Cert.Rbf.Ref

open Cert.ReferenceIdeal Cert.ReferenceIdeal.Gen Cert.ReferenceIdeal.Read
open Idealize.ShloMosaic Idealize.ShloMosaic.ValueIdx

/-- The squared-norm sum of `x` broadcast to entry `(b, o)` runs over row `b` of `x`. -/
theorem idx_xsq (b : Fin 16384) (o : Fin 4096) (k : Fin 1024) :
    idx_main_v1 (idx_main_v2 (idx_main_v8 (ix2 b o))) k = ix2 b k :=
  funext fun a => Fin.ext (by match a with | ⟨0, _⟩ => rfl | ⟨1, _⟩ => rfl)

/-- The squared-norm sum of `c` broadcast to entry `(b, o)` runs over row `o` of `c`. -/
theorem idx_csq (b : Fin 16384) (o : Fin 4096) (k : Fin 1024) :
    idx_main_v4 (idx_main_v7 (idx_main_v9 (ix2 b o))) k = ix2 o k :=
  funext fun a => Fin.ext (by match a with | ⟨0, _⟩ => rfl | ⟨1, _⟩ => rfl)

/-- The product's left factor at `(b, o)` and contraction index `k` is `x[b, k]`. -/
theorem idx_lhs (b : Fin 16384) (o : Fin 4096) (k : Fin 1024) :
    lidx_main_v6 (ix2 b o) k = ix2 b k :=
  funext fun a => Fin.ext (by match a with | ⟨0, _⟩ => rfl | ⟨1, _⟩ => rfl)

/-- Its right factor, read through the transpose, is `c[o, k]`. -/
theorem idx_rhs (b : Fin 16384) (o : Fin 4096) (k : Fin 1024) :
    idx_main_v5 (ridx_main_v6 (ix2 b o) k) = ix2 o k :=
  funext fun a => Fin.ext (by match a with | ⟨0, _⟩ => rfl | ⟨1, _⟩ => rfl)

/-- The width broadcast to entry `(b, o)` is the one of centre `o`. -/
theorem idx_ls (b : Fin 16384) (o : Fin 4096) :
    idx_main_v21 (idx_main_v22 (ix2 b o)) = ix1 o :=
  funext fun a => Fin.ext (by match a with | ⟨0, _⟩ => rfl)

/-- The reference's last stage is the layer. -/
theorem ref_eq (x0 : (⟨S16384x1024, .f32⟩ : BufTy).Contents (Elt Ideal)) (x1 : (⟨S4096x1024, .f32⟩ : BufTy).Contents (Elt Ideal))
    (x2 : (⟨S4096, .f32⟩ : BufTy).Contents (Elt Ideal)) :
    val_main_v24 (F := Ideal) x0 x1 x2 = Cert.Rbf.rbf x0 x1 x2 := by
  funext i
  obtain ⟨b, o, rfl⟩ : ∃ (b : Fin 16384) (o : Fin 4096), i = ix2 b o := ⟨i 0, i 1, eq_ix2 i⟩
  rw [Cert.Rbf.rbf_apply]
  unfold Cert.Rbf.rbfAt Cert.Rbf.tail
  simp only [val_main_v24_apply, val_main_v23_apply, val_main_v22_apply, val_main_v21_apply, val_main_v20_apply,
    val_main_v19_apply, val_main_v18_apply, val_main_cst_3_apply, val_main_v17_apply, val_main_v16_apply,
    val_main_v15_apply, val_main_v14_apply, val_main_cst_2_apply, val_main_v13_apply, val_main_v12_apply,
    val_main_v11_apply, val_main_cst_1_apply, val_main_v10_apply, val_main_v9_apply, val_main_v8_apply,
    val_main_v7_apply, val_main_v6_apply, val_main_v5_apply, val_main_v4_apply, val_main_cst_0_apply,
    val_main_v3_apply, val_main_v2_apply, val_main_v1_apply, val_main_cst_apply, val_main_v0_apply,
    Ideal.hostUnary_exp_def, Ideal.hostDivf_def, Ideal.hostNegf_def, Ideal.negf_def, Ideal.maximumf_def,
    Ideal.subf_def, Ideal.addf_def, Ideal.mulf_def, Ideal.ofBits_def,
    idx_xsq, idx_csq, idx_lhs, idx_rhs, idx_ls, Ideal.ofBits_zero_f32, zero_add, Cert.Rbf.two]

end Cert.Rbf.Ref

end
-- ==== Proof.Payload.lean ====
/-
  What the kernel body stores into its output block, entry by entry, at the ideal instance.

  The body loads a block `x` of 1024 batch rows, a block `c` of 512 centres and the 512 log-widths `l` that go
  with them, and stores one [1024, 512] value. That value splits into four non-pointwise pieces joined by
  pointwise arithmetic:
    * the row sums ∑ₖ x[p,k]² as a column, spread along the 512 columns;
    * the row sums ∑ₖ c[q,k]² as a row, spread along the 1024 rows;
    * the matrix product of `x` with `c` contracted over the features, ∑ₖ x[p,k] · c[q,k] (the change of
      format before the product is the identity on extended reals, and the accumulator is the zero splat);
    * the row 2 · e^{l_q} · e^{l_q}, spread along the 1024 rows.
  Each piece is read here at entry (p, q); the pointwise rest is `Spec.lean`'s `tail` by unfolding.
-/
import proofs.«154095_j13932873909049_1_alg».proof.Proof.Gen.KernelIdeal.Skeleton
import proofs.«154095_j13932873909049_1_alg».proof.Proof.Spec
import Idealize.ShloMosaic.Lib.Pipeline.Value
import Idealize.ShloMosaic.Lib.ValueIdx
import Idealize.ShloMosaic.PureOps.Ideal.Laws

noncomputable section

open scoped BigOperators

namespace Cert.Rbf.Kernel

open Cert.KernelIdeal Cert.KernelIdeal.Facts₀
open Idealize.ShloMosaic Idealize.ShloMosaic.ValueIdx

/-! ## The four pieces -/

/-- The squared norms of the block's batch rows, as a column spread along the columns. -/
def sqx (x0 : Vec Ideal S1024x1024 .f32) : FVec Ideal S1024x512 .f32 :=
  broadcastTo S1024x512 (shapeCast S1024x1 (multiReduction .add [1] S1024 (mulf x0 x0) 0x00000000#32 reduces_S1024x1024_S1024 (.inl rfl) rfl) shapeCasts_S1024_S1024x1) broadcasts_S1024x1_S1024x512

/-- The squared norms of the block's centres, as a row spread along the rows. -/
def sqc (x1 : Vec Ideal S512x1024 .f32) : FVec Ideal S1024x512 .f32 :=
  broadcastTo S1024x512 (shapeCast S1x512 (multiReduction .add [1] S512 (mulf x1 x1) 0x00000000#32 reduces_S512x1024_S512 (.inl rfl) rfl) shapeCasts_S512_S1x512) broadcasts_S1x512_S1024x512

/-- The inner products of batch rows with centres. -/
def crs (x0 : Vec Ideal S1024x1024 .f32) (x1 : Vec Ideal S512x1024 .f32) : FVec Ideal S1024x512 .f32 :=
  matmul dot_S1024x1024_S512x1024_S1024x512_1_1_0_0_n_n none (truncf .bf16 x0 bitsLt_bf16_f32) (truncf .bf16 x1 bitsLt_bf16_f32) (constant S1024x512 .f32 0x00000000#32)

/-- Twice the squared widths, as a row spread along the rows. -/
def wid (x2 : Vec Ideal S1x512 .f32) : FVec Ideal S1024x512 .f32 :=
  broadcastTo S1024x512 (mulf (mulf (broadcast S1x512 (Scalar.ofBits .f32 0x40000000#32)) (exp (shapeCast S1x512 x2 shapeCasts_S1x512_S1x512))) (exp (shapeCast S1x512 x2 shapeCasts_S1x512_S1x512))) broadcasts_S1x512_S1024x512

/-- The stored value is the pointwise tail over the four pieces. -/
theorem pay_split (x0 : Vec Ideal S1024x1024 .f32) (x1 : Vec Ideal S512x1024 .f32) (x2 : Vec Ideal S1x512 .f32) :
    Gen.k0_pay1 (F := Ideal) x0 x1 x2
      = exp (divf (subf (broadcast S1024x512 (Scalar.ofBits .f32 0x00000000#32))
          (maximumf (subf (addf (sqx x0) (sqc x1)) (mulf (broadcast S1024x512 (Scalar.ofBits .f32 0x40000000#32)) (crs x0 x1)))
            (broadcast S1024x512 (Scalar.ofBits .f32 0x00000000#32)))) (wid x2)) := rfl

/-! ## Each piece at entry (p, q) -/

/-- Entry (p, q) of the spread column is the squared norm of batch row `p`. -/
theorem sqx_apply (x0 : Vec Ideal S1024x1024 .f32) (p : Fin 1024) (q : Fin 512) :
    sqx x0 (ix2 p q) = ∑ k : Fin 1024, x0 (ix2 p k) * x0 (ix2 p k) := by
  unfold sqx
  rw [broadcastTo_apply _ broadcasts_S1024x1_S1024x512 (ix2 p q) (ix2 p (0 : Fin 1)) (fun a => match a with
      | ⟨0, _⟩ => by show p.val = if (1024 : Nat) = 1 then 0 else p.val; rw [if_neg (by decide)]
      | ⟨1, _⟩ => by show 0 = if (1 : Nat) = 1 then 0 else q.val; rw [if_pos rfl]),
    shapeCast_apply _ shapeCasts_S1024_S1024x1 (ix2 p (0 : Fin 1)) (ix1 p) (by
      rw [Shape.rowMajor_val_one, Shape.rowMajor_val_two]; show p.val = p.val * 1 + 0; omega)]
  refine (Ideal.multiReduction_add_single (mulf x0 x0) _ reduces_S1024x1024_S1024 _ _ (ix1 p)).trans ?_
  refine Finset.sum_congr rfl fun k _ => ?_
  have e : reduces_S1024x1024_S1024.lift (ix1 p) k = ix2 p k :=
    funext fun a => Fin.ext (by match a with | ⟨0, _⟩ => rfl | ⟨1, _⟩ => rfl)
  rw [e]
  rfl

/-- Entry (p, q) of the spread row is the squared norm of centre `q`. -/
theorem sqc_apply (x1 : Vec Ideal S512x1024 .f32) (p : Fin 1024) (q : Fin 512) :
    sqc x1 (ix2 p q) = ∑ k : Fin 1024, x1 (ix2 q k) * x1 (ix2 q k) := by
  unfold sqc
  rw [broadcastTo_apply _ broadcasts_S1x512_S1024x512 (ix2 p q) (ix2 (0 : Fin 1) q) (fun a => match a with
      | ⟨0, _⟩ => by show 0 = if (1 : Nat) = 1 then 0 else p.val; rw [if_pos rfl]
      | ⟨1, _⟩ => by show q.val = if (512 : Nat) = 1 then 0 else q.val; rw [if_neg (by decide)]),
    shapeCast_apply _ shapeCasts_S512_S1x512 (ix2 (0 : Fin 1) q) (ix1 q) (by
      rw [Shape.rowMajor_val_one, Shape.rowMajor_val_two]; show q.val = 0 * 512 + q.val; omega)]
  refine (Ideal.multiReduction_add_single (mulf x1 x1) _ reduces_S512x1024_S512 _ _ (ix1 q)).trans ?_
  refine Finset.sum_congr rfl fun k _ => ?_
  have e : reduces_S512x1024_S512.lift (ix1 q) k = ix2 q k :=
    funext fun a => Fin.ext (by match a with | ⟨0, _⟩ => rfl | ⟨1, _⟩ => rfl)
  rw [e]
  rfl

/-- The product's left operand index on its kept axis is the output's row … -/
theorem lhs_axis0 (i : S1024x512.Idx) (r : dot_S1024x1024_S512x1024_S1024x512_1_1_0_0_n_n.contr.Idx) :
    (dot_S1024x1024_S512x1024_S1024x512_1_1_0_0_n_n.lhsIdx i r 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- … and on its contracted axis the contraction coordinate. -/
theorem lhs_axis1 (i : S1024x512.Idx) (r : dot_S1024x1024_S512x1024_S1024x512_1_1_0_0_n_n.contr.Idx) :
    (dot_S1024x1024_S512x1024_S1024x512_1_1_0_0_n_n.lhsIdx i r 1).val = (r ⟨0, by decide⟩).val :=
  dot_S1024x1024_S512x1024_S1024x512_1_1_0_0_n_n.lhsIdx_val_of_single rfl i r
/-- The right operand index on its kept axis is the output's column … -/
theorem rhs_axis0 (i : S1024x512.Idx) (r : dot_S1024x1024_S512x1024_S1024x512_1_1_0_0_n_n.contr.Idx) :
    (dot_S1024x1024_S512x1024_S1024x512_1_1_0_0_n_n.rhsIdx i r 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- … and on its contracted axis the contraction coordinate. -/
theorem rhs_axis1 (i : S1024x512.Idx) (r : dot_S1024x1024_S512x1024_S1024x512_1_1_0_0_n_n.contr.Idx) :
    (dot_S1024x1024_S512x1024_S1024x512_1_1_0_0_n_n.rhsIdx i r 1).val = (r ⟨0, by decide⟩).val :=
  dot_S1024x1024_S512x1024_S1024x512_1_1_0_0_n_n.rhsIdx_val_of_single rfl i r

/-- Entry (p, q) of the product is the inner product of batch row `p` with centre `q`. -/
theorem crs_apply (x0 : Vec Ideal S1024x1024 .f32) (x1 : Vec Ideal S512x1024 .f32) (p : Fin 1024) (q : Fin 512) :
    crs x0 x1 (ix2 p q) = ∑ k : Fin 1024, x0 (ix2 p k) * x1 (ix2 q k) := by
  unfold crs
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]
  rfl

/-- Entry (p, q) of the spread widths is twice the squared width of centre `q`. -/
theorem wid_apply (x2 : Vec Ideal S1x512 .f32) (p : Fin 1024) (q : Fin 512) :
    wid x2 (ix2 p q) = Cert.Rbf.two * Ideal.exp (x2 (ix2 (0 : Fin 1) q)) * Ideal.exp (x2 (ix2 (0 : Fin 1) q)) := by
  unfold wid
  rw [broadcastTo_apply _ broadcasts_S1x512_S1024x512 (ix2 p q) (ix2 (0 : Fin 1) q) (fun a => match a with
      | ⟨0, _⟩ => by show 0 = if (1 : Nat) = 1 then 0 else p.val; rw [if_pos rfl]
      | ⟨1, _⟩ => by show q.val = if (512 : Nat) = 1 then 0 else q.val; rw [if_neg (by decide)]),
    shapeCast_self]
  rfl

/-! ## The stored value at entry (p, q) -/

/-- Entry (p, q) of what the body stores: the layer's scalar tail of the two squared norms, the inner product and the
    log-width of column `q`. -/
theorem pay_apply (x0 : Vec Ideal S1024x1024 .f32) (x1 : Vec Ideal S512x1024 .f32) (x2 : Vec Ideal S1x512 .f32)
    (p : Fin 1024) (q : Fin 512) :
    Gen.k0_pay1 (F := Ideal) x0 x1 x2 (ix2 p q)
      = Cert.Rbf.tail (∑ k : Fin 1024, x0 (ix2 p k) * x0 (ix2 p k)) (∑ k : Fin 1024, x1 (ix2 q k) * x1 (ix2 q k))
          (∑ k : Fin 1024, x0 (ix2 p k) * x1 (ix2 q k)) (x2 (ix2 (0 : Fin 1) q)) := by
  rw [pay_split]
  show Ideal.exp (Ideal.div (Ideal.ofBits .f32 0x00000000#32
      - max (sqx x0 (ix2 p q) + sqc x1 (ix2 p q) - Ideal.ofBits .f32 0x40000000#32 * crs x0 x1 (ix2 p q)) (Ideal.ofBits .f32 0x00000000#32))
      (wid x2 (ix2 p q))) = _
  rw [sqx_apply, sqc_apply, crs_apply, wid_apply, Cert.Rbf.zero_sub_eq, Ideal.ofBits_zero_f32]
  rfl

end Cert.Rbf.Kernel

end
-- ==== Proof.Blocks.lean ====
/-
  From the blocks to the whole output array.

  The grid has 16 × 8 points; point (i, j) loads batch rows 1024·i … 1024·i + 1023, centres 512·j … 512·j + 511
  with their log-widths, and writes back the [1024, 512] block (i, j) of the output. Entry (p, q) of that block
  is entry (1024·i + p, 512·j + q) of the layer of `Spec.lean` applied to the whole arrays: the three sums run
  over full feature rows, which every block holds whole. The 128 blocks tile the output, so after the run the
  output array is the layer of the argument arrays. The log-widths reach the kernel as a [1, 4096] row, the
  host's reshape of the [4096] argument: entry (0, o) of the row is entry o of the argument.
-/
import proofs.«154095_j13932873909049_1_alg».proof.Proof.Gen.KernelIdeal.Value
import proofs.«154095_j13932873909049_1_alg».proof.Proof.Payload
import Idealize.ShloMosaic.Lib.Pipeline.Value
import Idealize.ShloMosaic.Lib.StableHlo.Run
import Idealize.ShloMosaic.Lib.Tactic

noncomputable section

open scoped BigOperators

namespace Cert.Rbf.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits, decided over the 128 grid points -/

/-- The batch-row window moves with the output's row blocks, the centre and width windows with its column blocks;
    the feature axis is never cut; the output's block indices range over 16 × 8. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every block index of the 16 × 8 tiling is some grid point's. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-! ## The input blocks as parts of their arrays -/

/-- Entry (p, k) of the batch-row block at point `t` is entry (1024 · i + p, k) of the batch array, `i` the output's row block. -/
theorem xblk_apply (c : Dev nD) (t : Fin cfg0.N) (p k : Fin 1024) (r : Fin 16384)
    (hr : r.val = win0_3.index t (0 : Fin 2) * 1024 + p.val) :
    (iblk m c 0 t : Vec Ideal S1024x1024 .f32) (ix2 p k) = (V m c main_arg0 : S16384x1024.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- Entry (q, k) of the centre block at point `t` is entry (512 · j + q, k) of the centre array, `j` the output's column block. -/
theorem cblk_apply (c : Dev nD) (t : Fin cfg0.N) (q : Fin 512) (k : Fin 1024) (r : Fin 4096)
    (hr : r.val = win0_3.index t (1 : Fin 2) * 512 + q.val) :
    (iblk m c 1 t : Vec Ideal S512x1024 .f32) (ix2 q k) = (V m c main_arg1 : S4096x1024.Idx → EReal) (ix2 r k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * q.val = r.val; rw [e0, hr]; omega
  | ⟨1, _⟩ => show win0_1.index t (1 : Fin 2) * 1024 + 1 * k.val = k.val; rw [e1]; omega

/-- Entry (0, q) of the width block at point `t` is entry (0, 512 · j + q) of the width row. -/
theorem lblk_apply (c : Dev nD) (t : Fin cfg0.N) (q : Fin 512) (r : Fin 4096)
    (hr : r.val = win0_3.index t (1 : Fin 2) * 512 + q.val) :
    (iblk m c 2 t : Vec Ideal S1x512 .f32) (ix2 (0 : Fin 1) q) = (V m c main_v0 : S1x4096.Idx → EReal) (ix2 (0 : Fin 1) r) := by
  obtain ⟨-, -, -, -, e0, e1, -⟩ := idx_facts t
  unfold iblk
  rw [View.read_apply]
  show V m c main_v0 _ = V m c main_v0 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * q.val = r.val; rw [e1, hr]; omega

/-! ## One entry of a block is one entry of the layer -/

/-- If three blocks hold, at row `p` / row `q` / column `q`, the rows `i 0` of `X`, `i 1` of `C` and the entry `i 1` of the
    width row `L`, the body's stored value at (p, q) is the layer of `X`, `C` and `L`'s row at `i`. -/
theorem block_entry (X : S16384x1024.Idx → EReal) (C : S4096x1024.Idx → EReal) (L : S1x4096.Idx → EReal)
    (x0 : Vec Ideal S1024x1024 .f32) (x1 : Vec Ideal S512x1024 .f32) (x2 : Vec Ideal S1x512 .f32)
    (i : S16384x4096.Idx) (p : Fin 1024) (q : Fin 512)
    (h0 : ∀ k : Fin 1024, x0 (ix2 p k) = X (ix2 (i 0) k))
    (h1 : ∀ k : Fin 1024, x1 (ix2 q k) = C (ix2 (i 1) k))
    (h2 : x2 (ix2 (0 : Fin 1) q) = L (ix2 (0 : Fin 1) (i 1))) :
    k0_pay1 (F := Ideal) x0 x1 x2 (ix2 p q) = Cert.Rbf.rbf X C (fun j => L (ix2 (0 : Fin 1) (j 0))) i := by
  rw [Cert.Rbf.Kernel.pay_apply]
  show _ = Cert.Rbf.rbfAt X C (fun j => L (ix2 (0 : Fin 1) (j 0))) (i 0) (i 1)
  unfold Cert.Rbf.rbfAt
  simp only [h0, h1, h2]

/-! ## What each point writes back, the cover, the final array -/

/-- The output array the kernel computes, over the arrays as the region finds them. -/
def kout (c : Dev nD) : S16384x4096.Idx → EReal :=
  Cert.Rbf.rbf (V m c main_arg0) (V m c main_arg1) (fun j => (V m c main_v0 : S1x4096.Idx → EReal) (ix2 (0 : Fin 1) (j 0)))

/-- Point `t` writes back block `t` of `kout`. -/
theorem flushed_eq (c : Dev nD) (t : Fin cfg0.N) :
    (dats m 0 c).flushed 3 t = ((cfg0.win 3).blk t).view.read (Elt Ideal) (kout m c) := by
  rw [Cert.KernelIdeal.Value.flushed3]
  unfold out0_3
  rw [View.canon_unit_zero hz]
  simp only [View.ld_unit_zero (S := S1024x1024) hz, View.ld_unit_zero (S := S512x1024) hz, View.ld_unit_zero (S := S1x512) hz]
  funext j
  obtain ⟨p, q, rfl⟩ : ∃ (p : Fin 1024) (q : Fin 512), j = ix2 p q := ⟨j 0, j 1, eq_ix2 (n0 := 1024) (n1 := 512) j⟩
  rw [View.read_apply]
  unfold kout
  refine block_entry (V m c main_arg0) (V m c main_arg1) (V m c main_v0) (iblk m c 0 t) (iblk m c 1 t) (iblk m c 2 t)
    (((cfg0.win 3).blk t).view.emb (ix2 p q)) p q ?_ ?_ ?_
  · intro k
    exact xblk_apply m c t p k _ (by show win0_3.index t (0 : Fin 2) * 1024 + 1 * p.val = _; omega)
  · intro k
    exact cblk_apply m c t q k _ (by show win0_3.index t (1 : Fin 2) * 512 + 1 * q.val = _; omega)
  · exact lblk_apply m c t q _ (by show win0_3.index t (1 : Fin 2) * 512 + 1 * q.val = _; omega)

/-- An index of the output is in point `t`'s block iff each coordinate is in the block's range. -/
theorem mem_blk (t : Fin cfg0.N) (i : S16384x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every index of the output is in the block of the point at (row / 1024, column / 512). -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the run the output array is `kout`. -/
theorem final (c : Dev nD) : (dats m 0 c).arrAt 3 cfg0.N = kout m c :=
  (dats m 0 c).arrAt_eq_of_cover 3 (kout m c) (fun t _ => flushed_eq m c t) cover

/-! ## The arrays as the region finds them are the arguments -/

/-- The width row the region finds is the host's reshape of the width argument. -/
theorem V_widths (c : Dev nD) :
    (V m c main_v0 : S1x4096.Idx → EReal) = shapeCast S1x4096 (m ((c : Thread nD τ).loc main_arg2)) Facts₀.shapeCasts_S4096_S1x4096 := by
  dsimp only [Gen.V, Gen.hostOps0]
  after_results
  rfl

/-- So `kout` is the layer of the three argument arrays. -/
theorem kout_eq (c : Dev nD) :
    kout m c = Cert.Rbf.rbf (m ((c : Thread nD τ).loc main_arg0)) (m ((c : Thread nD τ).loc main_arg1)) (m ((c : Thread nD τ).loc main_arg2)) := by
  unfold kout
  rw [V_main_arg0, V_main_arg1, V_widths]
  congr 1
  funext j
  refine shapeCast_apply _ Facts₀.shapeCasts_S4096_S1x4096 (ix2 (0 : Fin 1) (j 0)) j ?_
  rw [Shape.rowMajor_val_one, Shape.rowMajor_val_two]
  show (j 0).val = 0 * 4096 + (j 0).val
  omega

/-! ## The run, read -/

/-- Every fair execution of the kernel program ends with the output array at the layer of the arguments, the arguments unchanged. -/
theorem run : θ_run defs (onTc (τ := τ) (main (F := Ideal))) ⟨m, fun _ => 0, ρ⟩ fun r => ∀ c : Dev nD,
      r.2.mem ((c : Thread nD τ).loc main_v1) = Cert.Rbf.rbf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (kout_eq m c)), (h c).2⟩)
    (Cert.KernelIdeal.Value.run_blocks m ρ)

end Cert.Rbf.Blocks

end
-- ==== Proof.lean ====
/-
  The radial-basis kernel against its jnp reference, over the extended reals.

  Both programs compute, for batch row b and centre o,
      out[b, o] = exp ( -(max (‖x_b‖² + ‖c_o‖² - 2 · ⟨x_b, c_o⟩) 0) / (2 · e^{ls_o} · e^{ls_o}) )
  with the same operations in the same order; the kernel cuts the output into 16 × 8 blocks of [1024, 512] and
  feeds its matrix unit through a narrower float format, which at the ideal instance is the identity.
  `Spec.lean` states the layer as one function of the argument arrays; `RefSide.lean` reads the reference's
  host operations at an index and finds that function; `Payload.lean` reads the kernel body's stored value at an
  entry of a block; `Blocks.lean` places the blocks in the output array and reads the kernel program's run.
  No algebraic law is needed beyond `0 + s = s` and `0 - d = -d`, so the finiteness precondition is never opened.
  The idealized kernel is the kernel's own text read at the ideal instance, so the idealization claim is trivial.
-/
import proofs.«154095_j13932873909049_1_alg».proof.Defs
import proofs.«154095_j13932873909049_1_alg».proof.Proof.Gen.Kernel
import proofs.«154095_j13932873909049_1_alg».proof.Proof.Gen.Kernel.Skeleton
import proofs.«154095_j13932873909049_1_alg».proof.Proof.Gen.Kernel.Launch
import proofs.«154095_j13932873909049_1_alg».proof.Proof.Gen.Kernel.Points
import proofs.«154095_j13932873909049_1_alg».proof.Proof.Gen.Kernel.Frame
import proofs.«154095_j13932873909049_1_alg».proof.Proof.Gen.KernelIdeal
import proofs.«154095_j13932873909049_1_alg».proof.Proof.Gen.KernelIdeal.Skeleton
import proofs.«154095_j13932873909049_1_alg».proof.Proof.Gen.KernelIdeal.Launch
import proofs.«154095_j13932873909049_1_alg».proof.Proof.Gen.KernelIdeal.Points
import proofs.«154095_j13932873909049_1_alg».proof.Proof.Gen.KernelIdeal.Frame
import proofs.«154095_j13932873909049_1_alg».proof.Proof.Gen.ReferenceIdeal
import proofs.«154095_j13932873909049_1_alg».proof.Proof.Gen.Pre_finite_inputs
import proofs.«154095_j13932873909049_1_alg».proof.Proof.Gen.KernelIdeal.Value
import proofs.«154095_j13932873909049_1_alg».proof.Proof.Gen.ReferenceIdeal.Run
import proofs.«154095_j13932873909049_1_alg».proof.Proof.Gen.ReferenceIdeal.Read
import proofs.«154095_j13932873909049_1_alg».proof.Proof.Spec
import proofs.«154095_j13932873909049_1_alg».proof.Proof.RefSide
import proofs.«154095_j13932873909049_1_alg».proof.Proof.Payload
import proofs.«154095_j13932873909049_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the output at the layer of the arguments. -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.Rbf.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
